-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x768x64 : Shape := ⟨3, ![1, 768, 64]⟩
abbrev S_ : Shape := ⟨0, ![]⟩

class Facts : Prop where
  bcast_S_S1x768x64 : S_.BroadcastsInDim S1x768x64 (![] : Fin 0 → Fin S1x768x64.rank)
  reducesTo_S1x768x64_S_d0_1_2 : S1x768x64.ReducesTo [0, 1, 2] S_
  h_S_ : 0 < S_.numel

variable [Facts]

def fn {F : FTy → Type} [FloatOps F] (main_arg0 : FVec F S1x768x64 .f32) : IVec S_ 1 :=
  let main_v0 : FVec F S1x768x64 .f32 := Host.absf main_arg0
  let main_cst : FVec F S_ .f32 := constant S_ .f32 0x7F800000#32
  let main_v1 : FVec F S1x768x64 .f32 := broadcastInDim S1x768x64 ![] bcast_S_S1x768x64 main_cst
  let main_v2 : IVec S1x768x64 1 := cmpf .olt main_v0 main_v1
  let main_c : IVec S_ 1 := constantI S_ 1 1#1
  let main_v3 : IVec S_ 1 := (fun x v => Host.reduce IntOp.andi x v reducesTo_S1x768x64_S_d0_1_2 h_S_) main_v2 main_c
  main_v3
-- ==== Kernel.lean ====
abbrev S1x768x64 : Shape := ⟨3, ![1, 768, 64]⟩
abbrev S1x768x768x192 : Shape := ⟨4, ![1, 768, 768, 192]⟩
abbrev S1x128x64 : Shape := ⟨3, ![1, 128, 64]⟩
abbrev S1x128x128x192 : Shape := ⟨4, ![1, 128, 128, 192]⟩
abbrev S1x128x1x64 : Shape := ⟨4, ![1, 128, 1, 64]⟩
abbrev S1x128x128x64 : Shape := ⟨4, ![1, 128, 128, 64]⟩
abbrev S1x1x128x64 : Shape := ⟨4, ![1, 1, 128, 64]⟩

abbrev nBuf : Space → Nat
  | .hbm => 2
  | .vmem => 6
  | .smem => 0
  | _ => 0

abbrev bufTy : (tb : Table) → Fin (tcTables nBuf tb) → BufTy
  | .hbm, ⟨0, _⟩ => ⟨S1x768x64, .f32⟩
  | .hbm, ⟨1, _⟩ => ⟨S1x768x768x192, .f32⟩
  | .local _ .vmem, ⟨0, _⟩ => ⟨S1x128x64, .f32⟩
  | .local _ .vmem, ⟨1, _⟩ => ⟨S1x128x64, .f32⟩
  | .local _ .vmem, ⟨2, _⟩ => ⟨S1x128x64, .f32⟩
  | .local _ .vmem, ⟨3, _⟩ => ⟨S1x128x64, .f32⟩
  | .local _ .vmem, ⟨4, _⟩ => ⟨S1x128x128x192, .f32⟩
  | .local _ .vmem, ⟨5, _⟩ => ⟨S1x128x128x192, .f32⟩
  | _, _ => ⟨S1x768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x128x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x128x64_S1x128x64_0_0_0 : ∀ a, (![0, 0, 0] : Fin 3 → Nat) a + S1x128x64.size a ≤ S1x128x64.size a
  h_S1x128x64 : 0 < S1x128x64.numel
  shapeCasts_S1x128x64_S1x128x1x64 : S1x128x64.ShapeCasts S1x128x1x64
  shapeCasts_S1x128x1x64_S1x128x1x64 : S1x128x1x64.ShapeCasts S1x128x1x64
  broadcasts_S1x128x1x64_S1x128x128x64 : S1x128x1x64.Broadcasts S1x128x128x64
  shapeCasts_S1x128x64_S1x1x128x64 : S1x128x64.ShapeCasts S1x1x128x64
  shapeCasts_S1x1x128x64_S1x1x128x64 : S1x1x128x64.ShapeCasts S1x1x128x64
  broadcasts_S1x1x128x64_S1x128x128x64 : S1x1x128x64.Broadcasts S1x128x128x64
  concatenates_S1x128x128x64_S1x128x128x64_S1x128x128x64_S1x128x128x192_d3 : Shape.Concatenates [S1x128x128x64, S1x128x128x64, S1x128x128x64] S1x128x128x192 3
  inb_S1x128x128x192_S1x128x128x192_0_0_0_0 : ∀ a, (![0, 0, 0, 0] : Fin 4 → Nat) a + S1x128x128x192.size a ≤ S1x128x128x192.size a
  h_S1x128x128x192 : 0 < S1x128x128x192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64.size a ≤ S1x768x64.size a
  hwx0_0 : ∀ i : grid0.Coords, EltTy.bits .f32 = 32 ∨ (Rect.block (s := S1x768x64) S1x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S1x768x64.size a
  hwx0_1 : ∀ i : grid0.Coords, EltTy.bits .f32 = 32 ∨ (Rect.block (s := S1x768x64) S1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128x192.size a ≤ S1x768x768x192.size a
  hwx0_2 : ∀ i : grid0.Coords, EltTy.bits .f32 = 32 ∨ (Rect.block (s := S1x768x768x192) S1x128x128x192.size (cc0_transform_2 i) (hinb0_2 i)).WholeWords (EltTy.packing .f32)

variable [Facts₀]

abbrev win0_0 : Pipeline.Window sig grid0 :=
  Pipeline.Window.ofSpec (Memref.whole main_arg0) S1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x128x192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x768x64 : Shape := ⟨3, ![1, 768, 64]⟩
abbrev S1x768x1x64 : Shape := ⟨4, ![1, 768, 1, 64]⟩
abbrev S1x768x768x64 : Shape := ⟨4, ![1, 768, 768, 64]⟩
abbrev S1x1x768x64 : Shape := ⟨4, ![1, 1, 768, 64]⟩
abbrev S_ : Shape := ⟨0, ![]⟩
abbrev S1x768x768x192 : Shape := ⟨4, ![1, 768, 768, 192]⟩

abbrev nBuf : Space → Nat
  | .hbm => 10
  | .vmem => 0
  | .smem => 0
  | _ => 0

abbrev bufTy : (tb : Table) → Fin (tcTables nBuf tb) → BufTy
  | .hbm, ⟨0, _⟩ => ⟨S1x768x64, .f32⟩
  | .hbm, ⟨1, _⟩ => ⟨S1x768x1x64, .f32⟩
  | .hbm, ⟨2, _⟩ => ⟨S1x768x768x64, .f32⟩
  | .hbm, ⟨3, _⟩ => ⟨S1x1x768x64, .f32⟩
  | .hbm, ⟨4, _⟩ => ⟨S1x768x768x64, .f32⟩
  | .hbm, ⟨5, _⟩ => ⟨S1x768x768x64, .f32⟩
  | .hbm, ⟨6, _⟩ => ⟨S_, .f32⟩
  | .hbm, ⟨7, _⟩ => ⟨S1x768x768x64, .f32⟩
  | .hbm, ⟨8, _⟩ => ⟨S1x768x768x64, .f32⟩
  | .hbm, ⟨9, _⟩ => ⟨S1x768x768x192, .f32⟩
  | _, _ => ⟨S1x768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]

class Facts₀ : Prop where
  bcast_S1x768x64_S1x768x1x64_0_1_3 : S1x768x64.BroadcastsInDim S1x768x1x64 (![0, 1, 3] : Fin 3 → Fin S1x768x1x64.rank)
  bcast_S1x768x1x64_S1x768x768x64_0_1_2_3 : S1x768x1x64.BroadcastsInDim S1x768x768x64 (![0, 1, 2, 3] : Fin 4 → Fin S1x768x768x64.rank)
  bcast_S1x768x64_S1x1x768x64_0_2_3 : S1x768x64.BroadcastsInDim S1x1x768x64 (![0, 2, 3] : Fin 3 → Fin S1x1x768x64.rank)
  bcast_S1x1x768x64_S1x768x768x64_0_1_2_3 : S1x1x768x64.BroadcastsInDim S1x768x768x64 (![0, 1, 2, 3] : Fin 4 → Fin S1x768x768x64.rank)
  bcast_S_S1x768x768x64 : S_.BroadcastsInDim S1x768x768x64 (![] : Fin 0 → Fin S1x768x768x64.rank)
  concatenates_S1x768x768x64_S1x768x768x64_S1x768x768x64_S1x768x768x192_d3 : Shape.Concatenates [S1x768x768x64, S1x768x768x64, S1x768x768x64] S1x768x768x192 3

variable [Facts₀]

class Facts : Prop extends Facts₀ where

variable [Facts]
-- ==== Proof.PairFrameBits.lean ====
/-
  The pairwise-feature kernel's run, at any value family: one region on a 6 × 6 grid whose point (i, j) stages
  rows 128·i … 128·i+127 of the argument array through its first window, rows 128·j … 128·j+127 of the SAME array
  through its second, and writes back block (i, j) of the result. Both input windows stand on one array, so the
  array's points-to is dealt between them in two halves of the full share; neither window is ever written, so each
  half comes back at the contents it had. What the body leaves in the result's staging buffer is its one store read
  as a function of the two staged blocks (`tile`); the input buffers are left as found. From this: every weakly
  fair execution terminates with each window's array at what the write-backs make of it.
-/
import proofs.«167672_j5927054868544_1_alg».proof.Proof.Gen.Kernel.Launch
import proofs.«167672_j5927054868544_1_alg».proof.Proof.Gen.Kernel.Skeleton
import proofs.«167672_j5927054868544_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- The core's buffers when the region is entered: the program is the region alone, so they are as launched. -/
abbrev V (c : Dev nD) (b : Ref sig .tc) : Buf (Elt F) ((c : Thread nD τ).loc b) := m ((c : Thread nD τ).loc b)

/-- The program up to its region is nothing. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

abbrev rIn : Rect S1x128x64 := Rect.unit (s := S1x128x64) ![0, 0, 0] S1x128x64.size inb_S1x128x64_S1x128x64_0_0_0
abbrev rOut : Rect S1x128x128x192 := Rect.unit (s := S1x128x128x192) ![0, 0, 0, 0] S1x128x128x192.size inb_S1x128x128x192_S1x128x128x192_0_0_0_0

/-- The result's staging buffer after the body: its single whole-buffer store, over the two staged row blocks. -/
def tile (xi xj : Vec F S1x128x64 .f32) : Vec F S1x128x128x192 .f32 :=
  View.canon [⟨rOut, k0_pay1 (View.ld xi rIn) (View.ld xj rIn)⟩]

/-- The store's rectangle is the whole buffer. -/
theorem tile_cover (p0 : Vec F S1x128x128x192 .f32) (y : S1x128x128x192.Idx) :
    ∃ pc ∈ ([⟨rOut, p0⟩] : List (View.Piece (Elt F) S1x128x128x192 .f32)), y ∈ pc.1.set :=
  View.cover_of_tiled [⟨rOut, p0⟩] S1x128x128x192.size (by rfl) y

/-! ## The body's triple -/

set_option maxHeartbeats 1000000 in
/-- On whole staging memrefs, the inputs' at contents `xi`, `xj` and the result's at anything, the body runs to the
    continuation with the inputs' as they were and the result's at `tile xi xj`. -/
theorem sound_kernel (c : Dev nD) (E : Set ℕ) (i : grid0.Coords)
    (a0 : Memref sig .tc .vmem S1x128x64 .f32) (h0 : a0.IsWhole) (a1 : Memref sig .tc .vmem S1x128x64 .f32) (h1 : a1.IsWhole)
    (a2 : Memref sig .tc .vmem S1x128x128x192 .f32) (h2 : a2.IsWhole)
    (xi xj : Vec F S1x128x64 .f32) (K : PUnit → sProp 𝕄) :
    iprop(owns (c : Thread nD τ) a0 fullShare xi ∗ owns (c : Thread nD τ) a1 fullShare xj ∗ (∃ d, owns (c : Thread nD τ) a2 fullShare d)
        ∗ (iprop(owns (c : Thread nD τ) a0 fullShare xi ∗ owns (c : Thread nD τ) a1 fullShare xj ∗ owns (c : Thread nD τ) a2 fullShare (tile xi xj)) -∗ K ⟨⟩))
      ⊢ wp frame (wpE (defs₀ (F := F)) Variants.none c none) E (cc0__pairwise_kernel i a0 h0 a1 h1 a2 h2) K := by
  simp only [cc0__pairwise_kernel_eq_skeleton]; unfold cc0__pairwise_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The proof data -/

/-- On core `c`: the arrays as launched; after the body each input buffer still at its block and the result's at
    `tile` of the two blocks; nothing carried between points; the argument array held by the first window at the
    left half of the full share and by the second at the right half. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => tile (blockAt m c 0 t) (blockAt m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = tile (blockAt m c 0 t) (blockAt m c 1 t) := by dsimp only [dats]

/-- The first window's buffer holds rows 128·i… at every point, fetched there or not: where it is not fetched the
    row-block index has not moved. -/
theorem before_0 (c : Dev nD) (t : Fin cfg0.N) (d) : (dats m 0 c).before 0 t d = blockAt m c 0 t :=
  ((dats m 0 c).before_in_eq_fetched 0 rfl (fun _ => rfl) (fun _ _ _ => rfl)
      (fun t => by rw [after_0]; unfold Dat.blockOf blockAt; rw [A_eq]; try rfl) t d).trans
    (by unfold Dat.fetched Dat.blockOf blockAt; rw [A_eq]; try rfl)

/-- The second window's buffer holds rows 128·j… at every point. -/
theorem before_1 (c : Dev nD) (t : Fin cfg0.N) (d) : (dats m 0 c).before 1 t d = blockAt m c 1 t :=
  ((dats m 0 c).before_in_eq_fetched 1 rfl (fun _ => rfl) (fun _ _ _ => rfl)
      (fun t => by rw [after_1]; unfold Dat.blockOf blockAt; rw [A_eq]; try rfl) t d).trans
    (by unfold Dat.fetched Dat.blockOf blockAt; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.Kernel.Pair

end
-- ==== Proof.PairRunBits.lean ====
/-
  The launch of the pairwise-feature kernel. The three windows stand on two buffers: the argument array (windows 0
  and 1) and the result (window 2). At the region's entry the argument array's points-to at the full share is cut
  into its left and right halves, one for each input window; the result's goes whole to the output window. Nothing
  else of the core is touched. The run then says: every weakly fair execution ends, and each window's array holds
  what the point-by-point write-backs make of its entry contents.
-/
import proofs.«167672_j5927054868544_1_alg».proof.Proof.PairFrameBits

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' buffers and shares -/

/-- The distinct buffers behind the three windows: the argument array and the result. -/
theorem arrRefs_eq : Finset.univ.image (Pipeline.arrRef spec0) = {main_arg0, main_v0} := by decide

theorem share_0 (c : Dev nD) : (dats m 0 c).share 0 = fullShare.left := rfl
theorem share_1 (c : Dev nD) : (dats m 0 c).share 1 = fullShare.right := rfl
theorem share_2 (c : Dev nD) : (dats m 0 c).share 2 = fullShare := rfl

/-- Nothing is carried between points: the invariant is the core's scoped buffers outside the staging, untouched. -/
theorem Φ_eq (c : Dev nD) (t : Fin (cfg0.N + 1)) : (dats m 0 c).Φ t = Pipeline.scopedRest spec0 c := rfl

/-- The buffers behind the arrays, each whole at the full share at its entry contents, make the windows' arrays
    at entry: the argument array's full share is its left half and its right half. -/
theorem hsplit (c : Dev nD) :
    (Pipeline.arrBufs spec0 c (V m c) : sProp 𝕄) ⊢ (dats m 0 c).arrays ((dats m 0 c).arrAt · 0) := by
  unfold Pipeline.arrBufs Pipeline.Dat.arrays
  rw [bigSep_W0, arrRefs_eq, bigSep_insert (by decide), bigSep_singleton,
    (arr_whole0 0).set_eq_univ, (arr_whole0 2).set_eq_univ, share_0, share_1, share_2]
  show iprop((((c.tc : Thread nD τ).loc main_arg0) ↦{fullShare} V m c main_arg0) ∗ (((c.tc : Thread nD τ).loc main_v0) ↦{fullShare} V m c main_v0)) ⊢ _
  iintro ⟨Ha, Hv⟩
  ihave H := (pointsTo_share (PosShare.mem_left_op_right fullShare)).1 $$ Ha
  icases H with ⟨Hl, Hr⟩
  isplitl [Hl]; · iexact Hl
  isplitl [Hr]; · iexact Hr
  iexact Hv

/-! ## The run -/

set_option backward.isDefEq.respectTransparency.types false in
/-- From any memory with zero counters every weakly fair execution of the program terminates, and in every final
    state each window's array holds its entry contents overwritten by the blocks written back. -/
theorem run_main : θ_run defs (onTc (τ := τ) (main (F := F))) (s₀ m ρ)
    (fun r => ∀ c : Dev nD, ∀ w : Fin cfg0.W,
      r.2.mem (((cfg0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun _ _ => True)
    (hY := fun c s' => by
      iintro ⟨-, -, HSI⟩
      imodintro
      isplitr; · ipureintro; trivial
      iexact HSI)
    (hQ := fun s h c w => (h c).1 w)

/-! ## Reading the run -/

/-- The argument array ends as launched: an input window's array is never written. -/
theorem arg_kept (c : Dev nD) : (dats m 0 c).arrAt 0 cfg0.N = m ((c.tc : Thread nD τ).loc main_arg0) :=
  ((dats m 0 c).arrAt_in 0 rfl _).trans (A_eq m c 0)

/-- The frame: the program runs, and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c) 0).trans (arg_kept m c)) (run_main m ρ)

end Cert.Kernel.Pair

end
-- ==== Proof.PairFrameIdeal.lean ====
/-
  The pairwise-feature kernel's run, at any value family: one region on a 6 × 6 grid whose point (i, j) stages
  rows 128·i … 128·i+127 of the argument array through its first window, rows 128·j … 128·j+127 of the SAME array
  through its second, and writes back block (i, j) of the result. Both input windows stand on one array, so the
  array's points-to is dealt between them in two halves of the full share; neither window is ever written, so each
  half comes back at the contents it had. What the body leaves in the result's staging buffer is its one store read
  as a function of the two staged blocks (`tile`); the input buffers are left as found. From this: every weakly
  fair execution terminates with each window's array at what the write-backs make of it.
-/
import proofs.«167672_j5927054868544_1_alg».proof.Proof.Gen.KernelIdeal.Launch
import proofs.«167672_j5927054868544_1_alg».proof.Proof.Gen.KernelIdeal.Skeleton
import proofs.«167672_j5927054868544_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- The core's buffers when the region is entered: the program is the region alone, so they are as launched. -/
abbrev V (c : Dev nD) (b : Ref sig .tc) : Buf (Elt F) ((c : Thread nD τ).loc b) := m ((c : Thread nD τ).loc b)

/-- The program up to its region is nothing. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

abbrev rIn : Rect S1x128x64 := Rect.unit (s := S1x128x64) ![0, 0, 0] S1x128x64.size inb_S1x128x64_S1x128x64_0_0_0
abbrev rOut : Rect S1x128x128x192 := Rect.unit (s := S1x128x128x192) ![0, 0, 0, 0] S1x128x128x192.size inb_S1x128x128x192_S1x128x128x192_0_0_0_0

/-- The result's staging buffer after the body: its single whole-buffer store, over the two staged row blocks. -/
def tile (xi xj : Vec F S1x128x64 .f32) : Vec F S1x128x128x192 .f32 :=
  View.canon [⟨rOut, k0_pay1 (View.ld xi rIn) (View.ld xj rIn)⟩]

/-- The store's rectangle is the whole buffer. -/
theorem tile_cover (p0 : Vec F S1x128x128x192 .f32) (y : S1x128x128x192.Idx) :
    ∃ pc ∈ ([⟨rOut, p0⟩] : List (View.Piece (Elt F) S1x128x128x192 .f32)), y ∈ pc.1.set :=
  View.cover_of_tiled [⟨rOut, p0⟩] S1x128x128x192.size (by rfl) y

/-! ## The body's triple -/

set_option maxHeartbeats 1000000 in
/-- On whole staging memrefs, the inputs' at contents `xi`, `xj` and the result's at anything, the body runs to the
    continuation with the inputs' as they were and the result's at `tile xi xj`. -/
theorem sound_kernel (c : Dev nD) (E : Set ℕ) (i : grid0.Coords)
    (a0 : Memref sig .tc .vmem S1x128x64 .f32) (h0 : a0.IsWhole) (a1 : Memref sig .tc .vmem S1x128x64 .f32) (h1 : a1.IsWhole)
    (a2 : Memref sig .tc .vmem S1x128x128x192 .f32) (h2 : a2.IsWhole)
    (xi xj : Vec F S1x128x64 .f32) (K : PUnit → sProp 𝕄) :
    iprop(owns (c : Thread nD τ) a0 fullShare xi ∗ owns (c : Thread nD τ) a1 fullShare xj ∗ (∃ d, owns (c : Thread nD τ) a2 fullShare d)
        ∗ (iprop(owns (c : Thread nD τ) a0 fullShare xi ∗ owns (c : Thread nD τ) a1 fullShare xj ∗ owns (c : Thread nD τ) a2 fullShare (tile xi xj)) -∗ K ⟨⟩))
      ⊢ wp frame (wpE (defs₀ (F := F)) Variants.none c none) E (cc0__pairwise_kernel i a0 h0 a1 h1 a2 h2) K := by
  simp only [cc0__pairwise_kernel_eq_skeleton]; unfold cc0__pairwise_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The proof data -/

/-- On core `c`: the arrays as launched; after the body each input buffer still at its block and the result's at
    `tile` of the two blocks; nothing carried between points; the argument array held by the first window at the
    left half of the full share and by the second at the right half. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => tile (blockAt m c 0 t) (blockAt m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = tile (blockAt m c 0 t) (blockAt m c 1 t) := by dsimp only [dats]

/-- The first window's buffer holds rows 128·i… at every point, fetched there or not: where it is not fetched the
    row-block index has not moved. -/
theorem before_0 (c : Dev nD) (t : Fin cfg0.N) (d) : (dats m 0 c).before 0 t d = blockAt m c 0 t :=
  ((dats m 0 c).before_in_eq_fetched 0 rfl (fun _ => rfl) (fun _ _ _ => rfl)
      (fun t => by rw [after_0]; unfold Dat.blockOf blockAt; rw [A_eq]; try rfl) t d).trans
    (by unfold Dat.fetched Dat.blockOf blockAt; rw [A_eq]; try rfl)

/-- The second window's buffer holds rows 128·j… at every point. -/
theorem before_1 (c : Dev nD) (t : Fin cfg0.N) (d) : (dats m 0 c).before 1 t d = blockAt m c 1 t :=
  ((dats m 0 c).before_in_eq_fetched 1 rfl (fun _ => rfl) (fun _ _ _ => rfl)
      (fun t => by rw [after_1]; unfold Dat.blockOf blockAt; rw [A_eq]; try rfl) t d).trans
    (by unfold Dat.fetched Dat.blockOf blockAt; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.KernelIdeal.Pair

end
-- ==== Proof.PairRunIdeal.lean ====
/-
  The launch of the pairwise-feature kernel. The three windows stand on two buffers: the argument array (windows 0
  and 1) and the result (window 2). At the region's entry the argument array's points-to at the full share is cut
  into its left and right halves, one for each input window; the result's goes whole to the output window. Nothing
  else of the core is touched. The run then says: every weakly fair execution ends, and each window's array holds
  what the point-by-point write-backs make of its entry contents.
-/
import proofs.«167672_j5927054868544_1_alg».proof.Proof.PairFrameIdeal

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' buffers and shares -/

/-- The distinct buffers behind the three windows: the argument array and the result. -/
theorem arrRefs_eq : Finset.univ.image (Pipeline.arrRef spec0) = {main_arg0, main_v0} := by decide

theorem share_0 (c : Dev nD) : (dats m 0 c).share 0 = fullShare.left := rfl
theorem share_1 (c : Dev nD) : (dats m 0 c).share 1 = fullShare.right := rfl
theorem share_2 (c : Dev nD) : (dats m 0 c).share 2 = fullShare := rfl

/-- Nothing is carried between points: the invariant is the core's scoped buffers outside the staging, untouched. -/
theorem Φ_eq (c : Dev nD) (t : Fin (cfg0.N + 1)) : (dats m 0 c).Φ t = Pipeline.scopedRest spec0 c := rfl

/-- The buffers behind the arrays, each whole at the full share at its entry contents, make the windows' arrays
    at entry: the argument array's full share is its left half and its right half. -/
theorem hsplit (c : Dev nD) :
    (Pipeline.arrBufs spec0 c (V m c) : sProp 𝕄) ⊢ (dats m 0 c).arrays ((dats m 0 c).arrAt · 0) := by
  unfold Pipeline.arrBufs Pipeline.Dat.arrays
  rw [bigSep_W0, arrRefs_eq, bigSep_insert (by decide), bigSep_singleton,
    (arr_whole0 0).set_eq_univ, (arr_whole0 2).set_eq_univ, share_0, share_1, share_2]
  show iprop((((c.tc : Thread nD τ).loc main_arg0) ↦{fullShare} V m c main_arg0) ∗ (((c.tc : Thread nD τ).loc main_v0) ↦{fullShare} V m c main_v0)) ⊢ _
  iintro ⟨Ha, Hv⟩
  ihave H := (pointsTo_share (PosShare.mem_left_op_right fullShare)).1 $$ Ha
  icases H with ⟨Hl, Hr⟩
  isplitl [Hl]; · iexact Hl
  isplitl [Hr]; · iexact Hr
  iexact Hv

/-! ## The run -/

set_option backward.isDefEq.respectTransparency.types false in
/-- From any memory with zero counters every weakly fair execution of the program terminates, and in every final
    state each window's array holds its entry contents overwritten by the blocks written back. -/
theorem run_main : θ_run defs (onTc (τ := τ) (main (F := F))) (s₀ m ρ)
    (fun r => ∀ c : Dev nD, ∀ w : Fin cfg0.W,
      r.2.mem (((cfg0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun _ _ => True)
    (hY := fun c s' => by
      iintro ⟨-, -, HSI⟩
      imodintro
      isplitr; · ipureintro; trivial
      iexact HSI)
    (hQ := fun s h c w => (h c).1 w)

/-! ## Reading the run -/

/-- The argument array ends as launched: an input window's array is never written. -/
theorem arg_kept (c : Dev nD) : (dats m 0 c).arrAt 0 cfg0.N = m ((c.tc : Thread nD τ).loc main_arg0) :=
  ((dats m 0 c).arrAt_in 0 rfl _).trans (A_eq m c 0)

/-- The frame: the program runs, and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c) 0).trans (arg_kept m c)) (run_main m ρ)

end Cert.KernelIdeal.Pair

end
-- ==== Proof.PairSpec.lean ====
/-
  The pairwise feature map. For an array x of 768 rows of 64 features, the result has, for every ordered pair of
  rows (i, j), 192 features: x[i], then the midpoint (x[i] + x[j]) · ½, then x[j]. Read at a feature index f, the
  third of the 192 it falls in is f / 64 and the feature inside that third is f % 64.
-/
import Idealize.ShloMosaic.PureOps.Ideal
import Idealize.ShloMosaic.Lib.ValueIdx

noncomputable section

namespace Cert.PairSpec

open Idealize.ShloMosaic

variable {F : FTy → Type} [FloatOps F]

/-- The argument's shape: one batch, 768 rows, 64 features. -/
abbrev SX : Shape := ⟨3, ![1, 768, 64]⟩
/-- The result's shape: one batch, 768 × 768 pairs of rows, 192 features. -/
abbrev SO : Shape := ⟨4, ![1, 768, 768, 192]⟩

/-- Row `r`, feature `k` of the argument. -/
def rowAt (r k : Nat) (hr : r < 768) (hk : k < 64) : SX.Idx := fun a => match a with
  | ⟨0, _⟩ => ⟨0, Nat.one_pos⟩
  | ⟨1, _⟩ => ⟨r, hr⟩
  | ⟨2, _⟩ => ⟨k, hk⟩

/-- Two indices of the argument with the same row and the same feature are one index. -/
theorem eq_rowAt (y : SX.Idx) (r k : Nat) (hr : r < 768) (hk : k < 64) (h1 : (y 1).val = r) (h2 : (y 2).val = k) :
    y = rowAt r k hr hk := by
  funext a
  match a with
  | ⟨0, _⟩ =>
    have h0 : (y 0).val < 1 := (y 0).isLt
    exact Fin.ext (show (y 0).val = 0 by omega)
  | ⟨1, _⟩ => exact Fin.ext h1
  | ⟨2, _⟩ => exact Fin.ext h2

/-- One of three values by a number: the first at 0, the second at 1, the third otherwise. -/
def third {β : Type} (n : Nat) (u v w : β) : β := if n = 0 then u else if n = 1 then v else w

/-- The pairwise features of `x`: at pair (i, j) and feature f, with k = f % 64, the value x[i,k] in the first
    third, (x[i,k] + x[j,k]) · ½ in the second, x[j,k] in the last. -/
def pairFeat (x : SX.Idx → Elt F .f32) : SO.Idx → Elt F .f32 := fun o =>
  third ((o 3).val / 64)
    (x (rowAt (o 1).val ((o 3).val % 64) (o 1).isLt (Nat.mod_lt _ (by decide))))
    (FloatOps.mulf (FloatOps.addf (x (rowAt (o 1).val ((o 3).val % 64) (o 1).isLt (Nat.mod_lt _ (by decide))))
        (x (rowAt (o 2).val ((o 3).val % 64) (o 2).isLt (Nat.mod_lt _ (by decide))))) (FloatOps.ofBits .f32 0x3F000000#32))
    (x (rowAt (o 2).val ((o 3).val % 64) (o 2).isLt (Nat.mod_lt _ (by decide))))

end Cert.PairSpec

end
-- ==== Proof.PairTile.lean ====
/-
  The kernel body's stored value at an index. From a staged block of 128 rows i and a staged block of 128 rows j the
  body builds, for every local pair (p, q), the 192 features: row p of the first block, the midpoint of row p of the
  first and row q of the second, row q of the second — a concatenation of three 128 × 128 × 64 arrays along the
  feature axis. The first is the first block with a unit axis inserted after the rows and spread along it, the
  third the second block with a unit axis inserted before the rows and spread along it.
-/
import proofs.«167672_j5927054868544_1_alg».proof.Proof.Gen.KernelIdeal.Skeleton
import proofs.«167672_j5927054868544_1_alg».proof.Proof.PairSpec
import Idealize.ShloMosaic.Lib.Pipeline.Value

noncomputable section

namespace Cert.KernelIdeal.PairTile

open Cert.KernelIdeal Cert.KernelIdeal.Gen Cert.PairSpec Idealize.ShloMosaic

variable {F : FTy → Type} [FloatOps F]

/-- Local row `r`, feature `k` of a staged block of 128 rows. -/
def blkAt (r k : Nat) (hr : r < 128) (hk : k < 64) : S1x128x64.Idx := fun a => match a with
  | ⟨0, _⟩ => ⟨0, Nat.one_pos⟩
  | ⟨1, _⟩ => ⟨r, hr⟩
  | ⟨2, _⟩ => ⟨k, hk⟩

/-- The first block spread along the second pair axis. -/
def spreadI (xi : Vec F S1x128x64 .f32) : FVec F S1x128x128x64 .f32 :=
  broadcastTo S1x128x128x64 (shapeCast S1x128x1x64 (shapeCast S1x128x1x64 xi shapeCasts_S1x128x64_S1x128x1x64) shapeCasts_S1x128x1x64_S1x128x1x64)
    broadcasts_S1x128x1x64_S1x128x128x64

/-- The second block spread along the first pair axis. -/
def spreadJ (xj : Vec F S1x128x64 .f32) : FVec F S1x128x128x64 .f32 :=
  broadcastTo S1x128x128x64 (shapeCast S1x1x128x64 (shapeCast S1x1x128x64 xj shapeCasts_S1x128x64_S1x1x128x64) shapeCasts_S1x1x128x64_S1x1x128x64)
    broadcasts_S1x1x128x64_S1x128x128x64

/-- The midpoints of the two spreads. -/
def mids (xi xj : Vec F S1x128x64 .f32) : FVec F S1x128x128x64 .f32 :=
  mulf (addf (spreadI xi) (spreadJ xj)) (broadcast S1x128x128x64 (Scalar.ofBits .f32 0x3F000000#32))

/-- The three thirds of the stored value, in order. -/
def thirds (xi xj : Vec F S1x128x64 .f32) : Fin 3 → (S1x128x128x64.Idx → Elt F .f32) := fun n => match n with
  | ⟨0, _⟩ => spreadI xi
  | ⟨1, _⟩ => mids xi xj
  | ⟨2, _⟩ => spreadJ xj

theorem pay_thirds (xi xj : Vec F S1x128x64 .f32) :
    k0_pay1 xi xj = concatenate S1x128x128x192 3 (List.ofFn fun n : Fin 3 => (⟨S1x128x128x64, thirds xi xj n⟩ : (s : Shape) × (s.Idx → Elt F .f32)))
      concatenates_S1x128x128x64_S1x128x128x64_S1x128x128x64_S1x128x128x192_d3 := rfl

/-- The first spread at (p, q, k) is the first block's row p, feature k. -/
theorem spreadI_apply (xi : Vec F S1x128x64 .f32) (i : S1x128x128x64.Idx) :
    spreadI xi i = xi (blkAt (i 1).val (i 3).val (i 1).isLt (i 3).isLt) := by
  unfold spreadI
  rw [shapeCast_self]
  let k : S1x128x1x64.Idx := fun a => match a with
    | ⟨0, _⟩ => ⟨0, Nat.one_pos⟩
    | ⟨1, _⟩ => ⟨(i 1).val, (i 1).isLt⟩
    | ⟨2, _⟩ => ⟨0, Nat.one_pos⟩
    | ⟨3, _⟩ => ⟨(i 3).val, (i 3).isLt⟩
  refine (broadcastTo_apply _ broadcasts_S1x128x1x64_S1x128x128x64 i k (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)]
    | ⟨2, _⟩ => by show 0 = if (1 : Nat) = 1 then 0 else (i 2).val; rw [if_pos rfl]
    | ⟨3, _⟩ => by show (i 3).val = if (64 : Nat) = 1 then 0 else (i 3).val; rw [if_neg (by decide)])).trans ?_
  refine shapeCast_apply xi shapeCasts_S1x128x64_S1x128x1x64 k (blkAt (i 1).val (i 3).val (i 1).isLt (i 3).isLt) ?_
  rw [Shape.rowMajor_val_three, Shape.rowMajor_val_four]
  show (0 * 128 + (i 1).val) * 64 + (i 3).val = ((0 * 128 + (i 1).val) * 1 + 0) * 64 + (i 3).val
  omega

/-- The second spread at (p, q, k) is the second block's row q, feature k. -/
theorem spreadJ_apply (xj : Vec F S1x128x64 .f32) (i : S1x128x128x64.Idx) :
    spreadJ xj i = xj (blkAt (i 2).val (i 3).val (i 2).isLt (i 3).isLt) := by
  unfold spreadJ
  rw [shapeCast_self]
  let k : S1x1x128x64.Idx := fun a => match a with
    | ⟨0, _⟩ => ⟨0, Nat.one_pos⟩
    | ⟨1, _⟩ => ⟨0, Nat.one_pos⟩
    | ⟨2, _⟩ => ⟨(i 2).val, (i 2).isLt⟩
    | ⟨3, _⟩ => ⟨(i 3).val, (i 3).isLt⟩
  refine (broadcastTo_apply _ broadcasts_S1x1x128x64_S1x128x128x64 i k (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (128 : Nat) = 1 then 0 else (i 2).val; rw [if_neg (by decide)]
    | ⟨3, _⟩ => by show (i 3).val = if (64 : Nat) = 1 then 0 else (i 3).val; rw [if_neg (by decide)])).trans ?_
  refine shapeCast_apply xj shapeCasts_S1x128x64_S1x1x128x64 k (blkAt (i 2).val (i 3).val (i 2).isLt (i 3).isLt) ?_
  rw [Shape.rowMajor_val_three, Shape.rowMajor_val_four]
  show (0 * 128 + (i 2).val) * 64 + (i 3).val = ((0 * 1 + 0) * 128 + (i 2).val) * 64 + (i 3).val
  omega

/-- The midpoints at (p, q, k). -/
theorem mids_apply (xi xj : Vec F S1x128x64 .f32) (i : S1x128x128x64.Idx) :
    mids xi xj i = FloatOps.mulf (FloatOps.addf (xi (blkAt (i 1).val (i 3).val (i 1).isLt (i 3).isLt)) (xj (blkAt (i 2).val (i 3).val (i 2).isLt (i 3).isLt)))
      (FloatOps.ofBits .f32 0x3F000000#32) := by
  show FloatOps.mulf (FloatOps.addf (spreadI xi i) (spreadJ xj i)) (FloatOps.ofBits .f32 0x3F000000#32) = _
  rw [spreadI_apply, spreadJ_apply]

/-- The stored value at local pair (p, q) and feature f: the third f / 64 names, at feature f % 64. -/
theorem pay_apply (xi xj : Vec F S1x128x64 .f32) (j : S1x128x128x192.Idx) :
    k0_pay1 xi xj j = third ((j 3).val / 64)
      (xi (blkAt (j 1).val ((j 3).val % 64) (j 1).isLt (Nat.mod_lt _ (by decide))))
      (FloatOps.mulf (FloatOps.addf (xi (blkAt (j 1).val ((j 3).val % 64) (j 1).isLt (Nat.mod_lt _ (by decide))))
          (xj (blkAt (j 2).val ((j 3).val % 64) (j 2).isLt (Nat.mod_lt _ (by decide))))) (FloatOps.ofBits .f32 0x3F000000#32))
      (xj (blkAt (j 2).val ((j 3).val % 64) (j 2).isLt (Nat.mod_lt _ (by decide)))) := by
  have hj : (j 3).val < 192 := (j 3).isLt
  have hj0 : (j 0).val < 1 := (j 0).isLt
  let i : S1x128x128x64.Idx := fun a => match a with
    | ⟨0, _⟩ => ⟨0, Nat.one_pos⟩
    | ⟨1, _⟩ => ⟨(j 1).val, (j 1).isLt⟩
    | ⟨2, _⟩ => ⟨(j 2).val, (j 2).isLt⟩
    | ⟨3, _⟩ => ⟨(j 3).val % 64, Nat.mod_lt _ (by decide)⟩
  have key := concatenate_ofFn_apply (t := S1x128x128x192) (s₁ := S1x128x128x64) (3 : Fin 4) (thirds xi xj)
    concatenates_S1x128x128x64_S1x128x128x64_S1x128x128x64_S1x128x128x192_d3 rfl 64 rfl j ⟨(j 3).val / 64, by omega⟩ rfl i rfl
    (fun b hb => by
      match b with
      | ⟨0, _⟩ => show 0 = (j 0).val; omega
      | ⟨1, _⟩ => rfl
      | ⟨2, _⟩ => rfl
      | ⟨3, _⟩ => exact absurd rfl hb)
  rw [pay_thirds]
  refine key.trans ?_
  unfold third
  rcases (by omega : (j 3).val / 64 = 0 ∨ (j 3).val / 64 = 1 ∨ (j 3).val / 64 = 2) with h | h | h
  · rw [show (⟨(j 3).val / 64, by omega⟩ : Fin 3) = ⟨0, by decide⟩ from Fin.ext h, if_pos h]
    exact spreadI_apply xi i
  · rw [show (⟨(j 3).val / 64, by omega⟩ : Fin 3) = ⟨1, by decide⟩ from Fin.ext h, if_neg (by omega), if_pos h]
    exact mids_apply xi xj i
  · rw [show (⟨(j 3).val / 64, by omega⟩ : Fin 3) = ⟨2, by decide⟩ from Fin.ext h, if_neg (by omega), if_neg (by omega)]
    exact spreadJ_apply xj i

end Cert.KernelIdeal.PairTile

end
-- ==== Proof.PairValueIdeal.lean ====
/-
  The kernel's result array. Point (i, j) of the 6 × 6 grid writes back block (i, j) of the result, and what it
  writes is that block of the pairwise feature map of the argument: its first staged block is rows 128·i … of the
  argument, its second rows 128·j …, and the stored value pairs local row p of the first with local row q of the
  second. The 36 blocks tile the result, so after the run the result array IS the pairwise feature map.
-/
import proofs.«167672_j5927054868544_1_alg».proof.Proof.PairRunIdeal
import proofs.«167672_j5927054868544_1_alg».proof.Proof.PairTile
import Idealize.ShloMosaic.Lib.Pipeline.Value

set_option maxRecDepth 16384

noncomputable section

namespace Cert.KernelIdeal.Pair

open Idealize.ShloMosaic Idealize.ShloMosaic.TcCoe
open Idealize.SL Idealize.SL.Sem
open Idealize.ShloMosaic.Pipeline (Dat Cfg Window)
open Cert.KernelIdeal Cert.KernelIdeal.Gen Cert.PairSpec Cert.KernelIdeal.PairTile

variable {F : FTy → Type} [FloatOps F]

variable (m : (ℓ : Loc nD τ sig) → Buf (Elt F) ℓ) (ρ : Dev nD → PrngReg)

theorem zero4 : (![0, 0, 0, 0] : Fin 4 → Nat) = fun _ => 0 := funext fun a => by fin_cases a <;> rfl
theorem zero3 : (![0, 0, 0] : Fin 3 → Nat) = fun _ => 0 := funext fun a => by fin_cases a <;> rfl

/-- Two argument indices with equal rows and equal features are equal. -/
theorem rowAt_congr {r r' k k' : Nat} (hr : r < 768) (hk : k < 64) (hr' : r' < 768) (hk' : k' < 64) (e1 : r = r') (e2 : k = k') :
    rowAt r k hr hk = rowAt r' k' hr' hk' := by subst e1 e2; rfl

/-- A pair of staged blocks that are rows 128·bi … and rows 128·bj … of `x` store, at local pair (p, q) and feature f,
    the pairwise feature of `x` at pair (128·bi + p, 128·bj + q) and feature f. -/
theorem tile_block (x : SX.Idx → Elt F .f32) (xi xj : Vec F S1x128x64 .f32) (bi bj : Nat) (hbi : bi ≤ 5) (hbj : bj ≤ 5)
    (hxi : ∀ (r k : Nat) (hr : r < 128) (hk : k < 64), xi (blkAt r k hr hk) = x (rowAt (bi * 128 + r) k (by omega) hk))
    (hxj : ∀ (r k : Nat) (hr : r < 128) (hk : k < 64), xj (blkAt r k hr hk) = x (rowAt (bj * 128 + r) k (by omega) hk))
    (j : S1x128x128x192.Idx) (o : SO.Idx) (ho1 : (o 1).val = bi * 128 + (j 1).val) (ho2 : (o 2).val = bj * 128 + (j 2).val)
    (ho3 : (o 3).val = (j 3).val) :
    k0_pay1 xi xj j = pairFeat x o := by
  rw [pay_apply]
  unfold pairFeat
  have ea : xi (blkAt (j 1).val ((j 3).val % 64) (j 1).isLt (Nat.mod_lt _ (by decide)))
      = x (rowAt (o 1).val ((o 3).val % 64) (o 1).isLt (Nat.mod_lt _ (by decide))) :=
    (hxi _ _ _ _).trans (congrArg x (rowAt_congr _ _ _ _ ho1.symm (by rw [ho3])))
  have eb : xj (blkAt (j 2).val ((j 3).val % 64) (j 2).isLt (Nat.mod_lt _ (by decide)))
      = x (rowAt (o 2).val ((o 3).val % 64) (o 2).isLt (Nat.mod_lt _ (by decide))) :=
    (hxj _ _ _ _).trans (congrArg x (rowAt_congr _ _ _ _ ho2.symm (by rw [ho3])))
  rw [ea, eb, ← ho3]

/-- The three index maps over the grid: batch and feature block 0 everywhere; the first input's row block is the
    result's first pair block, the second input's the result's second pair block; both below 6. -/
theorem idx_facts : ∀ t : Fin cfg0.N,
    win0_0.index t (0 : Fin 3) = 0 ∧ win0_0.index t (2 : Fin 3) = 0
    ∧ win0_1.index t (0 : Fin 3) = 0 ∧ win0_1.index t (2 : Fin 3) = 0
    ∧ win0_2.index t (0 : Fin 4) = 0 ∧ win0_2.index t (3 : Fin 4) = 0
    ∧ win0_0.index t (1 : Fin 3) = win0_2.index t (1 : Fin 4)
    ∧ win0_1.index t (1 : Fin 3) = win0_2.index t (2 : Fin 4)
    ∧ win0_2.index t (1 : Fin 4) ≤ 5 ∧ win0_2.index t (2 : Fin 4) ≤ 5 :=
  (by decide +kernel : ∀ t : Fin grid0.N, _)

/-- Every block of the result is some point's. -/
theorem idx_onto : ∀ (q1 q2 : Fin 6), ∃ t : Fin cfg0.N, win0_2.index t = ![0, q1.val, q2.val, 0] :=
  (by decide +kernel : ∀ (q1 q2 : Fin 6), ∃ t : Fin grid0.N, win0_2.index t = ![0, q1.val, q2.val, 0])

/-- What point `t` writes back is block `t` of the pairwise feature map of the argument array. -/
theorem flushed_eq (c : Dev nD) (t : Fin cfg0.N) :
    (dats m 0 c).flushed 2 t = ((cfg0.win 2).blk t).view.read (Elt F) (pairFeat (V m c main_arg0)) := by
  show (cfg0.win 2).cut (grid0.coords t) ((dats m 0 c).after 2 t) = _
  rw [after_2]
  unfold tile
  rw [View.canon_unit_zero zero4]
  simp only [View.ld_unit_zero (S := S1x128x64) zero3]
  obtain ⟨a0, a2, b0, b2, c0, c3, eI, eJ, lI, lJ⟩ := idx_facts t
  funext j
  show k0_pay1 (blockAt m c 0 t) (blockAt m c 1 t) j = pairFeat (V m c main_arg0) (((cfg0.win 2).blk t).view.emb j)
  refine tile_block (V m c main_arg0) (blockAt m c 0 t) (blockAt m c 1 t) (win0_2.index t (1 : Fin 4)) (win0_2.index t (2 : Fin 4)) lI lJ
    (fun r k hr hk => ?_) (fun r k hr hk => ?_) j _ ?_ ?_ ?_
  · show V m c main_arg0 (((cfg0.win 0).blk t).view.emb (blkAt r k hr hk)) = _
    refine congrArg (V m c main_arg0) (eq_rowAt _ _ _ _ _ ?_ ?_)
    · show win0_0.index t (1 : Fin 3) * 128 + 1 * r = win0_2.index t (1 : Fin 4) * 128 + r
      omega
    · show win0_0.index t (2 : Fin 3) * 64 + 1 * k = k
      omega
  · show V m c main_arg0 (((cfg0.win 1).blk t).view.emb (blkAt r k hr hk)) = _
    refine congrArg (V m c main_arg0) (eq_rowAt _ _ _ _ _ ?_ ?_)
    · show win0_1.index t (1 : Fin 3) * 128 + 1 * r = win0_2.index t (2 : Fin 4) * 128 + r
      omega
    · show win0_1.index t (2 : Fin 3) * 64 + 1 * k = k
      omega
  · show win0_2.index t (1 : Fin 4) * 128 + 1 * (j 1).val = win0_2.index t (1 : Fin 4) * 128 + (j 1).val
    omega
  · show win0_2.index t (2 : Fin 4) * 128 + 1 * (j 2).val = win0_2.index t (2 : Fin 4) * 128 + (j 2).val
    omega
  · show win0_2.index t (3 : Fin 4) * 192 + 1 * (j 3).val = (j 3).val
    omega

/-- An index of the result is in point `t`'s block iff each coordinate is in the block's range on its axis. -/
theorem mem_blk (t : Fin cfg0.N) (i : S1x768x768x192.Idx) :
    i ∈ ((cfg0.win 2).blk t).view.set ↔ ∀ a : Fin 4, win0_2.index t a * S1x128x128x192.size a ≤ (i a).val ∧ (i a).val < win0_2.index t a * S1x128x128x192.size a + S1x128x128x192.size a := by
  show i ∈ ((View.whole main_v0).slice (win0_2.rect t)).set ↔ _
  rw [View.set_slice_whole, Rect.mem_set_unit]
  exact Iff.rfl

/-- Every index of the result lies in the block of the point (row / 128, row' / 128). -/
theorem covered (i : S1x768x768x192.Idx) :
    ∃ t : Fin cfg0.N, (cfg0.win 2).flush t = true ∧ i ∈ ((cfg0.win 2).blk t).view.set := by
  have h0 : (i 0).val < 1 := (i 0).isLt
  have h1 : (i 1).val < 768 := (i 1).isLt
  have h2 : (i 2).val < 768 := (i 2).isLt
  have h3 : (i 3).val < 192 := (i 3).isLt
  obtain ⟨t, ht⟩ := idx_onto ⟨(i 1).val / 128, by omega⟩ ⟨(i 2).val / 128, by omega⟩
  have q0 : win0_2.index t (0 : Fin 4) = 0 := congrFun ht 0
  have q1 : win0_2.index t (1 : Fin 4) = (i 1).val / 128 := congrFun ht 1
  have q2 : win0_2.index t (2 : Fin 4) = (i 2).val / 128 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 128 ≤ (i 1).val ∧ (i 1).val < win0_2.index t (1 : Fin 4) * 128 + 128; omega
  | ⟨2, _⟩ => show win0_2.index t (2 : Fin 4) * 128 ≤ (i 2).val ∧ (i 2).val < win0_2.index t (2 : Fin 4) * 128 + 128; omega
  | ⟨3, _⟩ => show win0_2.index t (3 : Fin 4) * 192 ≤ (i 3).val ∧ (i 3).val < win0_2.index t (3 : Fin 4) * 192 + 192; omega

/-- After the run the result array is the pairwise feature map of the argument as launched. -/
theorem result_final (c : Dev nD) : (dats m 0 c).arrAt 2 cfg0.N = pairFeat (m ((c.tc : Thread nD τ).loc main_arg0)) :=
  (dats m 0 c).arrAt_eq_of_cover 2 (pairFeat (V m c main_arg0)) (fun t _ => flushed_eq m c t) covered

/-- The run with its result named: the result array ends at the pairwise feature map of the argument, the argument
    unchanged. -/
theorem run : θ_run defs (onTc (τ := τ) (main (F := F))) ⟨m, fun _ => 0, ρ⟩ (fun r => ∀ c : Dev nD,
      r.2.mem ((c.tc : Thread nD τ).loc main_v0) = pairFeat (m ((c.tc : Thread nD τ).loc main_arg0))
      ∧ r.2.mem ((c.tc : Thread nD τ).loc main_arg0) = m ((c.tc : Thread nD τ).loc main_arg0)) :=
  (θ_run defs _ _).mono (fun _ h c => ⟨((h c) 2).trans (result_final m c), ((h c) 0).trans (arg_kept m c)⟩) (run_main m ρ)

end Cert.KernelIdeal.Pair

end
-- ==== Proof.RefPair.lean ====
/-
  The reference program read as one function of its argument, index by index. Its result is the concatenation along
  the feature axis of three arrays of 768 × 768 × 64: the rows x[i] repeated along j, the midpoints
  (x[i] + x[j]) · ½, and the rows x[j] repeated along i. At feature f the third is f / 64 and the feature inside it
  f % 64, which is the pairwise feature map.
-/
import proofs.«167672_j5927054868544_1_alg».proof.Proof.Gen.ReferenceIdeal.Run
import proofs.«167672_j5927054868544_1_alg».proof.Proof.Gen.ReferenceIdeal.Read
import proofs.«167672_j5927054868544_1_alg».proof.Proof.PairSpec

noncomputable section

namespace Cert.ReferenceIdeal.RefPair

open Cert.ReferenceIdeal Cert.ReferenceIdeal.Gen Cert.ReferenceIdeal.Read Cert.PairSpec Idealize.ShloMosaic

variable {F : FTy → Type} [FloatOps F]

/-- The rows x[i] repeated along j, at an index: row i, the index's feature. -/
theorem rowsI_apply (x : SX.Idx → Elt F .f32) (i : S1x768x768x64.Idx) :
    val_main_v1 (F := F) x i = x (rowAt (i 1).val (i 3).val (i 1).isLt (i 3).isLt) := by
  rw [val_main_v1_apply, val_main_v0_apply]
  exact congrArg x (eq_rowAt _ _ _ _ _ rfl rfl)

/-- The rows x[j] repeated along i, at an index: row j, the index's feature. -/
theorem rowsJ_apply (x : SX.Idx → Elt F .f32) (i : S1x768x768x64.Idx) :
    val_main_v3 (F := F) x i = x (rowAt (i 2).val (i 3).val (i 2).isLt (i 3).isLt) := by
  rw [val_main_v3_apply, val_main_v2_apply]
  exact congrArg x (eq_rowAt _ _ _ _ _ rfl rfl)

/-- The midpoints at an index. -/
theorem mid_apply (x : SX.Idx → Elt F .f32) (i : S1x768x768x64.Idx) :
    val_main_v6 (F := F) x i
      = FloatOps.mulf (FloatOps.addf (x (rowAt (i 1).val (i 3).val (i 1).isLt (i 3).isLt)) (x (rowAt (i 2).val (i 3).val (i 2).isLt (i 3).isLt)))
          (FloatOps.ofBits .f32 0x3F000000#32) := by
  rw [val_main_v6_apply, val_main_v4_apply, val_main_v5_apply, val_main_cst_apply, rowsI_apply, rowsJ_apply]

/-- The three thirds of the result, in order. -/
def thirds (x : SX.Idx → Elt F .f32) : Fin 3 → (S1x768x768x64.Idx → Elt F .f32) := fun n => match n with
  | ⟨0, _⟩ => val_main_v1 (F := F) x
  | ⟨1, _⟩ => val_main_v6 (F := F) x
  | ⟨2, _⟩ => val_main_v3 (F := F) x

theorem result_thirds (x : SX.Idx → Elt F .f32) :
    val_main_v7 (F := F) x = concatenate S1x768x768x192 3 (List.ofFn fun n : Fin 3 => (⟨S1x768x768x64, thirds x n⟩ : (s : Shape) × (s.Idx → Elt F .f32)))
      concatenates_S1x768x768x64_S1x768x768x64_S1x768x768x64_S1x768x768x192_d3 := rfl

/-- The reference's result is the pairwise feature map of its argument. -/
theorem result_eq (x : SX.Idx → Elt F .f32) : val_main_v7 (F := F) x = pairFeat x := by
  funext o
  have ho : (o 3).val < 192 := (o 3).isLt
  have ho0 : (o 0).val < 1 := (o 0).isLt
  let i : S1x768x768x64.Idx := fun a => match a with
    | ⟨0, _⟩ => ⟨0, Nat.one_pos⟩
    | ⟨1, _⟩ => ⟨(o 1).val, (o 1).isLt⟩
    | ⟨2, _⟩ => ⟨(o 2).val, (o 2).isLt⟩
    | ⟨3, _⟩ => ⟨(o 3).val % 64, Nat.mod_lt _ (by decide)⟩
  have key := concatenate_ofFn_apply (t := S1x768x768x192) (s₁ := S1x768x768x64) (3 : Fin 4) (thirds x)
    concatenates_S1x768x768x64_S1x768x768x64_S1x768x768x64_S1x768x768x192_d3 rfl 64 rfl o ⟨(o 3).val / 64, by omega⟩ rfl i rfl
    (fun b hb => by
      match b with
      | ⟨0, _⟩ => show 0 = (o 0).val; omega
      | ⟨1, _⟩ => rfl
      | ⟨2, _⟩ => rfl
      | ⟨3, _⟩ => exact absurd rfl hb)
  rw [result_thirds]
  refine key.trans ?_
  unfold pairFeat third
  rcases (by omega : (o 3).val / 64 = 0 ∨ (o 3).val / 64 = 1 ∨ (o 3).val / 64 = 2) with h | h | h
  · rw [show (⟨(o 3).val / 64, by omega⟩ : Fin 3) = ⟨0, by decide⟩ from Fin.ext h, if_pos h]
    exact rowsI_apply x i
  · rw [show (⟨(o 3).val / 64, by omega⟩ : Fin 3) = ⟨1, by decide⟩ from Fin.ext h, if_neg (by omega), if_pos h]
    exact mid_apply x i
  · rw [show (⟨(o 3).val / 64, by omega⟩ : Fin 3) = ⟨2, by decide⟩ from Fin.ext h, if_neg (by omega), if_neg (by omega)]
    exact rowsJ_apply x i

end Cert.ReferenceIdeal.RefPair

end
-- ==== Proof.lean ====
/-
  The pairwise-feature kernel against its reference. Both compute, for an array x of 768 rows of 64 features, the
  array whose entry at the ordered pair of rows (i, j) is the 192 features x[i], (x[i] + x[j]) · ½, x[j]: the reference
  in one piece, the kernel in 36 blocks of 128 × 128 pairs, each from one block of rows i and one block of rows j of
  the SAME argument array, which its two input windows hold in two halves of the array's full share. Over the extended
  reals the two results are the same function of x entry by entry, with no arithmetic law needed beyond reading both
  sides at an index: the sum, the product and the literal ½ are the same operations in the same order on both sides,
  so the finiteness of the input is never used. The ideal pass rewrote nothing, so the idealized kernel is the
  kernel's own text and `preserves` has nothing to state.
-/
import proofs.«167672_j5927054868544_1_alg».proof.Defs
import proofs.«167672_j5927054868544_1_alg».proof.Proof.Gen.Kernel
import proofs.«167672_j5927054868544_1_alg».proof.Proof.Gen.KernelIdeal
import proofs.«167672_j5927054868544_1_alg».proof.Proof.Gen.ReferenceIdeal
import proofs.«167672_j5927054868544_1_alg».proof.Proof.Gen.Pre_finite_inputs
import proofs.«167672_j5927054868544_1_alg».proof.Proof.PairRunBits
import proofs.«167672_j5927054868544_1_alg».proof.Proof.PairValueIdeal
import proofs.«167672_j5927054868544_1_alg».proof.Proof.RefPair

noncomputable section

namespace Cert.Proof

open Idealize.ShloMosaic Idealize.ShloMosaic.TcCoe Idealize.SL.Sem

/-- The word-level kernel runs and leaves its argument as launched. -/
theorem frame_kernel : Cert.frame_Kernel := fun m ρ _ => Cert.Kernel.Pair.frame (F := Bits) m ρ

/-- So does the kernel read over the extended reals. -/
theorem frame_kernelIdeal : Cert.frame_KernelIdeal := fun m ρ _ => Cert.KernelIdeal.Pair.frame (F := Ideal) m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the argument both programs end with the pairwise feature map of that argument. -/
theorem algebraic : Cert.algebraic_KernelIdeal_ReferenceIdeal := by
  intro m ρ m' ρ' _ hagree
  refine ⟨fun c => Cert.PairSpec.pairFeat (m ((c.tc : Thread Cert.KernelIdeal.nD Cert.KernelIdeal.τ).loc Cert.KernelIdeal.main_arg0)),
    Cert.KernelIdeal.Pair.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefPair.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
